-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S512x10000 : Shape := ⟨2, ![512, 10000]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S512x10000, .f32⟩
  | .local _ .vmem, ⟨4, _⟩ => ⟨S512x10000, .f32⟩
  | .local _ .vmem, ⟨5, _⟩ => ⟨S512x128, .f32⟩
  | .local _ .vmem, ⟨6, _⟩ => ⟨S512x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  inb_S512x10000_S512x10000_0_0 : ∀ a, (![0, 0] : Fin 2 → Nat) a + S512x10000.size a ≤ S512x10000.size a
  h_S512x10000 : 0 < S512x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x10000.size a < S10000x10000.size a
  hwx0_3 : ∀ i : grid0.Coords, EltTy.bits .f32 = 32 ∨ (Rect.unit (s := S10000x10000) (fun a => cc0_transform_3 i a * S512x10000.size a) (fun a => (Pipeline.Clip.of (cc0_transform_3 i a) (S512x10000.size a) (S10000x10000.size a)).extent (S512x10000.size a)) fun a => Pipeline.Clip.inb (Pipeline.Clip.ok_of (hstart0_3 i a))).WholeWords (EltTy.packing .f32)
  hwxs0_3 : ∀ i : grid0.Coords, EltTy.bits .f32 = 32 ∨ (Rect.unit (s := S512x10000) (fun _ => 0) (fun a => (Pipeline.Clip.of (cc0_transform_3 i a) (S512x10000.size a) (S10000x10000.size a)).extent (S512x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x128.size a < S10000x128.size a
  hwx0_4 : ∀ i : grid0.Coords, EltTy.bits .f32 = 32 ∨ (Rect.unit (s := S10000x128) (fun a => cc0_transform_4 i a * S512x128.size a) (fun a => (Pipeline.Clip.of (cc0_transform_4 i a) (S512x128.size a) (S10000x128.size a)).extent (S512x128.size a)) fun a => Pipeline.Clip.inb (Pipeline.Clip.ok_of (hstart0_4 i a))).WholeWords (EltTy.packing .f32)
  hwxs0_4 : ∀ i : grid0.Coords, EltTy.bits .f32 = 32 ∨ (Rect.unit (s := S512x128) (fun _ => 0) (fun a => (Pipeline.Clip.of (cc0_transform_4 i a) (S512x128.size a) (S10000x128.size a)).extent (S512x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S512x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0) S512x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
import proofs.«116116_g5188320494189_cont_8to1_c_158_7_alg».proof.Proof.Gen.Kernel.Frame
import proofs.«116116_g5188320494189_cont_8to1_c_158_7_alg».proof.Proof.Gen.Kernel.Skeleton
import Idealize.ShloMosaic.Lib.Pipeline.Frame
import Idealize.ShloMosaic.Lib.Tactic

/-!
# The frame of the word-level graph-convolution program

The program is one pipelined region on a grid of 20 points. At every point the body reads its five
staged blocks and a scratch buffer it keeps between points, and stores into the scratch (at the first
point) and into the result's block. The adjacency's blocks (512 rows of 10000) and the result's blocks
(512 rows of 128) overhang their arrays at the last point (20 · 512 = 10240 > 10000), so the last
fetch leaves the tail of a staging buffer at words nothing names, and the matrix product over words is
opaque in its whole operand. The frame needs none of that: it says only that the run terminates,
faults nowhere, and leaves the four argument arrays as they were. So the proof data below constrain
nothing about what the body leaves in a buffer; an input array is never written back, hence ends as it
began, and the bias array bypasses the region.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Each windowed array at what the region finds in it; of what the body leaves in a staging buffer,
    nothing is said (the relation holds of any two contents); the invariant is the scratch buffer at
    some contents and the generator register at some state; nothing owed; full shares. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch operand: a whole scoped buffer of the kernel's own, passed beside the windows. -/
abbrev scratch : Memref sig .tc .vmem S10000x128 .f32 := Memref.whole cc0_scratch0

/-- The invariant, with the scratch as a whole memref owned at some contents. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The body, from any contents to some contents -/

/-- The body's one branch is on the grid coordinate: taken where it is zero. -/
abbrev atFirst (i : grid0.Coords) : Prop :=
  Scalar.cmpi .ne (Scalar.extui (Scalar.cmpi .eq (BitVec.ofNat 32 (i 0).val) 0#32)) 0#32 = 1#1

set_option maxHeartbeats 1000000 in
/-- On whole memrefs at any contents the body runs, whichever way its branch goes, and hands the six
    buffers back, each at some contents: every load is of a buffer it owns whole, every store covers
    the buffer it stores into. -/
theorem body_runs (c : Dev nD) (i : grid0.Coords)
    (arg1 : Memref sig .tc .vmem S10000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S512x10000 .f32) (harg4 : arg4.IsWhole)
    (arg5 : Memref sig .tc .vmem S512x128 .f32) (harg5 : arg5.IsWhole)
    (arg6 : Memref sig .tc .vmem S10000x128 .f32) (harg6 : arg6.IsWhole)
    (x1 : Vec F S10000x128 .f32) (x2 : Vec F S128x128 .f32) (x3 : Vec F S1x128 .f32)
    (x4 : Vec F S512x10000 .f32) (x5 : Vec F S512x128 .f32) (x6 : Vec F S10000x128 .f32)
    (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (iprop((∃ X, owns (c : Thread nD τ) arg1 fullShare X) ∗ (∃ X, owns (c : Thread nD τ) arg2 fullShare X)
            ∗ (∃ X, owns (c : Thread nD τ) arg3 fullShare X) ∗ (∃ X, owns (c : Thread nD τ) arg4 fullShare X)
            ∗ (∃ X, owns (c : Thread nD τ) arg5 fullShare X) ∗ (∃ X, owns (c : Thread nD τ) arg6 fullShare X)) -∗ K ⟨⟩))
      ⊢ wp frame (wpE (defs₀ (F := F)) Variants.none c none) E
          (cc0__gcn_step i arg1 harg1 arg2 harg2 arg3 harg3 arg4 harg4 arg5 harg5 arg6 harg6) K := by
  simp only [cc0__gcn_step_eq_skeleton]; unfold cc0__gcn_step_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  by_cases hc : atFirst i <;>
  · sl_exec (disch := exact hc)
    sl_step
    iapply Hk
    isplitl [H1]
    · iexists _; iexists _; isplitr
      swap; · iexact H1
      ipureintro; rfl
    isplitl [H2]
    · iexists _; iexists _; isplitr
      swap; · iexact H2
      ipureintro; rfl
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    · iexists _; iexists _; isplitr
      swap; · iexact H6
      ipureintro; rfl

/-! ## The body obligation -/

/-- What the body is called with at point `t`, the windows one by one: the invariant, what the core owes, and
    each window's current staging buffer at the contents `Y w` it may then hold. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4))

/-- What it returns: the invariant, what the core owes, and each buffer at some contents, of which the
    relation asks nothing. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X))

set_option maxHeartbeats 1000000 in
/-- The body at any point: the invariant lends it the scratch at some contents, the windows' buffers
    are whole memrefs at the contents handed over, so it runs; every buffer comes back at some
    contents, the scratch goes back into the invariant, and the core owes nothing throughout. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  rw [show (rdat m c).Φ t.castSucc = Pipeline.ΦA spec0 c from rfl, show (rdat m c).Φ t.succ = Pipeline.ΦA spec0 c from rfl, PhiA_eq]
  iintro ⟨⟨⟨%d, HS⟩, Hg⟩, Ho, H0, H1, H2, H3, H4⟩
  iapply (body_runs c (grid0.coords t) _ _ _ _ _ _ _ _ _ _ _ _ (Y 0) (Y 1) (Y 2) (Y 3) (Y 4) d Set.univ _)
  isplitl [H0]; · iexact H0
  isplitl [H1]; · iexact H1
  isplitl [H2]; · iexact H2
  isplitl [H3]; · iexact H3
  isplitl [H4]; · iexact H4
  isplitl [HS]; · iexact HS
  iintro ⟨⟨%X0, H0⟩, ⟨%X1, H1⟩, ⟨%X2, H2⟩, ⟨%X3, H3⟩, ⟨%X4, H4⟩, HS⟩
  isplitl [HS Hg]
  · isplitl [HS]; · iexact HS
    iexact Hg
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  · iexists X4; isplitr; · ipureintro; trivial
    iexact H4

/-- The library's body obligation of the relational data, at every point: nothing of what the buffers
    may hold is used. -/
theorem body_obligation (c : Dev nD) : (rdat m c).BodyObligation (defs₀ (F := F)) Variants.none () Set.univ := fun t Y _ => by
  rw [bigSep_W0, bigSep_W0]
  exact sound_body m c t Y

/-! ## The run and the frame -/

set_option backward.isDefEq.respectTransparency.types false in
/-- From any memory with zero counters, every weakly fair execution of the program terminates, and in
    every final state each windowed array holds something it may hold after the write-backs and every
    other unscoped buffer what the region found in it. -/
theorem run_main : θ_run defs (onTc (τ := τ) (main (F := F))) (s₀ m ρ) (Pipeline.RDat.FramePost cfg0 (rdat m) (V m)) :=
  Pipeline.RDat.θ_run_frame cfgs 0 launch0 defs₀ Variants.none (rdat m) m ρ main
    (hbody := fun c => body_obligation m c)
    (hshare := fun c w => by unfold Pipeline.RDat.share; split <;> rfl)
    (howed := fun _ _ => rfl) (V := V m) (hmain := hmain m Variants.none)
    (hA := fun _ _ => rfl) (hΦ := fun _ _ => rfl)

/-- THE FRAME: the run terminates without a fault and the four argument arrays end as they began. The
    features, the adjacency and the weights are arrays of input windows, never written back, so they
    hold what the region found, which is what the program was launched with; the bias is staged by no
    window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 0 rfl).trans (V_main_arg0 m c),
      (Pipeline.RDat.FramePost.arr_in h c 3 rfl).trans (V_main_arg1 m c),
      (Pipeline.RDat.FramePost.arr_in h c 1 rfl).trans (V_main_arg2 m c),
      ((h c).2 main_arg3 (Pipeline.mem_restRefs_of main_arg3 (by decide) (by decide))).trans (V_main_arg3 m c)⟩)
    (run_main m ρ)

end Cert.Kernel.Hand

end
-- ==== Proof.Body.lean ====
/-
  The kernel body as a triple, in its two cases.

  The body is called with six buffers: the features x, the weight w, the bias row b, the current
  adjacency block a, the current output block, and a scratch that lives across grid points. At the
  grid's first point it first stores  support = x · wᵀ  (the stored value `k0_pay1 x w`) into the
  scratch; at every point it then stores  a · scratch + b  (the stored value `k0_pay2 a scratch b`)
  into the output block. The four inputs are only loaded, so they come back as they were.
-/
import proofs.«116116_g5188320494189_cont_8to1_c_158_7_alg».proof.Proof.Gen.KernelIdeal.Skeleton
import proofs.«116116_g5188320494189_cont_8to1_c_158_7_alg».proof.Proof.Gen.KernelIdeal.Frame
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch, as the printed scalar chain over the grid coordinate: is this the first point? -/
abbrev firstPoint (i : grid0.Coords) : Prop :=
  Scalar.cmpi .ne (Scalar.extui (Scalar.cmpi .eq (BitVec.ofNat 32 (i 0).val) 0#32)) 0#32 = 1#1

/-- It holds at point 0 and at no other of the twenty points. -/
theorem firstPoint_iff : ∀ t : Fin cfg0.N, firstPoint (grid0.coords t) ↔ t.val = 0 :=
  (by decide +kernel : ∀ t : Fin grid0.N, firstPoint (grid0.coords t) ↔ t.val = 0)

/-- Both offsets of every access of the body are zero. -/
theorem zeros2 : (![0, 0] : Fin 2 → Nat) = fun _ => 0 := funext fun a => by fin_cases a <;> rfl

/-! ## Whole-buffer accesses, at any shape

Every access of the body is through the rectangle at offsets zero of the buffer's own sizes. Stated once over an
abstract shape: a load reads the contents, one store leaves its payload, and a load after that store reads the payload. -/

section Whole

variable {Val : EltTy → Type} [∀ e, Nonempty (Val e)] {sg : RefSig} {κ : Kind} {sp : Space} {S : Shape} {e : EltTy}

theorem load_whole (v : View sg κ sp S e) (f : v.ty.Contents Val) (X : S.Idx → Val e) (hf : v.read Val f = X)
    {off : Fin S.rank → Nat} (h : off = fun _ => 0) (inb : ∀ a, off a + S.size a ≤ S.size a) :
    v.readAt Val (Rect.unit off S.size inb).toLoadRect f = X := by
  rw [View.readAt_eq_ld, hf]; exact View.ld_unit_zero h inb X

theorem store_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

theorem load_after_store (v : View sg κ sp S e) {off : Fin S.rank → Nat} (h : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

end Whole

set_option maxHeartbeats 1000000 in
/-- At a LATER point: with the scratch holding `s`, the output block ends at `a · s + b` (`k0_pay2 x3 s x2`);
    every other buffer, the scratch too, is as it was. -/
theorem body_later (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S512x10000 .f32) (h4 : a4.IsWhole)
    (a5 : Memref sig .tc .vmem S512x128 .f32) (h5 : a5.IsWhole) (a6 : Memref sig .tc .vmem S10000x128 .f32) (h6 : a6.IsWhole)
    (hc : ¬firstPoint i)
    (x0 : Vec F S10000x128 .f32) (x1 : Vec F S128x128 .f32) (x2 : Vec F S1x128 .f32) (x3 : Vec F S512x10000 .f32)
    (s : Vec F S10000x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare s
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k0_pay2 x3 s x2)
            ∗ owns (c : Thread nD τ) a6 fullShare s) -∗ K ⟨⟩))
      ⊢ wp frame (wpE (defs₀ (F := F)) Variants.none c none) E (cc0__gcn_step i a1 h1 a2 h2 a3 h3 a4 h4 a5 h5 a6 h6) K := by
  simp only [cc0__gcn_step_eq_skeleton]; unfold cc0__gcn_step_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  obtain rfl := h1.eq_unread hf0; obtain rfl := h2.eq_unread hf1; obtain rfl := h3.eq_unread hf2
  obtain rfl := h4.eq_unread hf3; obtain rfl := h6.eq_unread hf6
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (store_whole a5.view f4 zeros2 inb_S512x128_S512x128_0_0 _).trans ?_
    rw [load_whole a4.view _ x3 hf3 zeros2 inb_S512x10000_S512x10000_0_0,
      load_whole a6.view _ s hf6 zeros2 inb_S10000x128_S10000x128_0_0,
      load_whole a3.view _ x2 hf2 zeros2 inb_S1x128_S1x128_0_0]
  · iexists _; isplitr; · ipureintro; exact hf6
    iexact H6

set_option maxHeartbeats 1000000 in
/-- At the FIRST point: whatever the scratch held, it ends at `x · wᵀ` (`k0_pay1 x0 x1`), and the output block at
    `a · (x · wᵀ) + b`: the second product loads the scratch back after the store. -/
theorem body_first (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S512x10000 .f32) (h4 : a4.IsWhole)
    (a5 : Memref sig .tc .vmem S512x128 .f32) (h5 : a5.IsWhole) (a6 : Memref sig .tc .vmem S10000x128 .f32) (h6 : a6.IsWhole)
    (hc : firstPoint i)
    (x0 : Vec F S10000x128 .f32) (x1 : Vec F S128x128 .f32) (x2 : Vec F S1x128 .f32) (x3 : Vec F S512x10000 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k0_pay2 x3 (k0_pay1 x0 x1) x2)
            ∗ owns (c : Thread nD τ) a6 fullShare (k0_pay1 x0 x1)) -∗ K ⟨⟩))
      ⊢ wp frame (wpE (defs₀ (F := F)) Variants.none c none) E (cc0__gcn_step i a1 h1 a2 h2 a3 h3 a4 h4 a5 h5 a6 h6) K := by
  simp only [cc0__gcn_step_eq_skeleton]; unfold cc0__gcn_step_skel
  unfold owns
  iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
  obtain rfl := h1.eq_unread hf0; obtain rfl := h2.eq_unread hf1; obtain rfl := h3.eq_unread hf2
  obtain rfl := h4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    refine (store_whole a5.view f4 zeros2 inb_S512x128_S512x128_0_0 _).trans ?_
    rw [load_after_store a6.view zeros2 inb_S10000x128_S10000x128_0_0,
      load_whole a4.view _ x3 hf3 zeros2 inb_S512x10000_S512x10000_0_0,
      load_whole a1.view _ x0 hf0 zeros2 inb_S10000x128_S10000x128_0_0,
      load_whole a2.view _ x1 hf1 zeros2 inb_S128x128_S128x128_0_0,
      load_whole a3.view _ x2 hf2 zeros2 inb_S1x128_S1x128_0_0]
  · iexists _; isplitr
    swap; · iexact H6
    ipureintro
    sl_unfold_run_names
    refine (store_whole a6.view f6 zeros2 inb_S10000x128_S10000x128_0_0 _).trans ?_
    rw [load_whole a1.view _ x0 hf0 zeros2 inb_S10000x128_S10000x128_0_0,
      load_whole a2.view _ x1 hf1 zeros2 inb_S128x128_S128x128_0_0]

end Cert.KernelIdeal.Hand

end
-- ==== Proof.Spec.lean ====
/-
  The graph-convolution layer as ONE function of its four argument arrays, on the extended reals.

  With x : [10000, 128] the node features, adj : [10000, 10000] the dense adjacency, w : [128, 128] the
  weight of a linear map stored as [out, in], and b : [128] the bias,

      support[k, c] = Σ_j x[k, j] · w[c, j]                 (x · wᵀ)
      layer[r, c]   = (Σ_k adj[r, k] · support[k, c]) + b[c]

  Both programs compute exactly this association of the two sums; no law of the extended reals beyond
  reading each operation at an index joins them, so finiteness of the inputs is never used.
-/
import Idealize.ShloMosaic.PureOps.Ideal
import Idealize.ShloMosaic.Lib.ValueIdx

noncomputable section

namespace Cert.GraphConv

open Idealize.ShloMosaic Idealize.ShloMosaic.ValueIdx

/-- Node features and the result: 10000 nodes, 128 channels. -/
abbrev Nodes : Shape := ⟨2, ![10000, 128]⟩
/-- The dense adjacency. -/
abbrev Adj : Shape := ⟨2, ![10000, 10000]⟩
/-- The weight, [out, in]. -/
abbrev Wt : Shape := ⟨2, ![128, 128]⟩
/-- The bias. -/
abbrev Bias : Shape := ⟨1, ![128]⟩

/-- `support[k, c] = Σ_j x[k, j] · w[c, j]`: the features through the linear map, the weight read transposed. -/
def support (x : Nodes.Idx → EReal) (w : Wt.Idx → EReal) (k : Fin 10000) (c : Fin 128) : EReal :=
  ∑ j : Fin 128, x (ix2 k j) * w (ix2 c j)

/-- `layer[r, c] = (Σ_k adj[r, k] · support[k, c]) + b[c]`. -/
def layer (x : Nodes.Idx → EReal) (adj : Adj.Idx → EReal) (w : Wt.Idx → EReal) (b : Bias.Idx → EReal) :
    Nodes.Idx → EReal :=
  fun i => (∑ k : Fin 10000, adj (ix2 (i 0) k) * support x w k (i 1)) + b (ix1 (i 1))

theorem layer_apply (x : Nodes.Idx → EReal) (adj : Adj.Idx → EReal) (w : Wt.Idx → EReal) (b : Bias.Idx → EReal)
    (r : Fin 10000) (c : Fin 128) :
    layer x adj w b (ix2 r c) = (∑ k : Fin 10000, adj (ix2 r k) * support x w k c) + b (ix1 c) := rfl

end Cert.GraphConv

end
-- ==== Proof.Payload.lean ====
/-
  The two values the kernel body stores, each read at one index, on the extended reals.

  At the first grid point the body stores  support = x · wᵀ : the product of the node features [10000, 128] with the
  transposed weight [128, 128], accumulated into a zero splat and cast to its own shape. At every point it stores one
  block of output rows: the adjacency block [512, 10000] times the support [10000, 128], again into a zero splat, plus
  the bias row [1, 128] broadcast over the 512 rows.

  Read at an index (k, c), a product into the zero splat is the sum over the one contracted axis of the operands'
  products; the contraction index is carried to its single coordinate, and the operand indices the dimension numbers
  build are (row, j) on the left and (j, column) on the right. The transpose reads (j, c) at (c, j), the cast to the same
  shape is the identity, and the broadcast reads the one bias row. Nothing of the extended reals' arithmetic is used
  beyond  0 + s = s.
-/
import proofs.«116116_g5188320494189_cont_8to1_c_158_7_alg».proof.Proof.Gen.KernelIdeal.Skeleton
import proofs.«116116_g5188320494189_cont_8to1_c_158_7_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.GraphConv.Pay

open Cert.KernelIdeal Cert.KernelIdeal.Gen Idealize.ShloMosaic Idealize.ShloMosaic.ValueIdx

variable [Cert.KernelIdeal.Facts]

/-! ## The first product: features [10000, 128] times a [128, 128] matrix -/

/-- The left operand's row is the output's row … -/
theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … its column the contracted coordinate; -/
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand's row is the contracted coordinate … -/
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and its column the output's column. -/
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero splat at (k, c): the row k of the left against the column c of the right. -/
theorem feat_matmul_apply (x : FVec Ideal S10000x128 .f32) (y : FVec Ideal S128x128 .f32) (k : Fin 10000) (c : Fin 128) :
    matmul dot_S10000x128_S128x128_S10000x128_1_0_0_1_n_n none x y (constant (F := Ideal) S10000x128 .f32 0x00000000#32) (ix2 k c)
      = ∑ j : Fin 128, x (ix2 k j) * y (ix2 j c) := by
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k c) ((contrEquiv1 dot_S10000x128_S128x128_S10000x128_1_0_0_1_n_n 128 rfl rfl).symm j) = ix2 k j := funext fun a => Fin.ext (by
    match a with
    | ⟨0, _⟩ => exact lhs_feat_0 _ _
    | ⟨1, _⟩ => exact (lhs_feat_1 _ _).trans hj)
  have er : dot_S10000x128_S128x128_S10000x128_1_0_0_1_n_n.rhsIdx (ix2 k c) ((contrEquiv1 dot_S10000x128_S128x128_S10000x128_1_0_0_1_n_n 128 rfl rfl).symm j) = ix2 j c := funext fun a => Fin.ext (by
    match a with
    | ⟨0, _⟩ => exact (rhs_feat_0 _ _).trans hj
    | ⟨1, _⟩ => exact rhs_feat_1 _ _)
  rw [el, er]

/-- support, as the body stores it at the first point -/
theorem pay1_apply (x : Vec Ideal S10000x128 .f32) (w : Vec Ideal S128x128 .f32) (k : Fin 10000) (c : Fin 128) :
    k0_pay1 (F := Ideal) x w (ix2 k c) = Cert.GraphConv.support x w k c := by
  unfold k0_pay1 Cert.GraphConv.support
  refine (congrFun (shapeCast_self _ Facts₀.shapeCasts_S10000x128_S10000x128) (ix2 k c)).trans ?_
  refine (feat_matmul_apply x _ k c).trans ?_
  refine Finset.sum_congr rfl fun j _ => ?_
  exact congrArg (x (ix2 k j) * ·) (transpose_ix2_apply w Facts₀.transposes_S128x128_p1_0_S128x128 j c)

/-! ## The second product: an adjacency block [512, 10000] times the support [10000, 128] -/

/-- The left operand's row is the output's row … -/
theorem lhs_adj_0 (i : S512x128.Idx) (q : dot_S512x10000_S10000x128_S512x128_1_0_0_1_n_n.contr.Idx) :
    (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
/-- … its column the contracted coordinate; -/
theorem lhs_adj_1 (i : S512x128.Idx) (q : dot_S512x10000_S10000x128_S512x128_1_0_0_1_n_n.contr.Idx) :
    (dot_S512x10000_S10000x128_S512x128_1_0_0_1_n_n.lhsIdx i q 1).val = (q ⟨0, by decide⟩).val :=
  dot_S512x10000_S10000x128_S512x128_1_0_0_1_n_n.lhsIdx_val_of_single rfl i q
/-- the right operand's row is the contracted coordinate … -/
theorem rhs_adj_0 (i : S512x128.Idx) (q : dot_S512x10000_S10000x128_S512x128_1_0_0_1_n_n.contr.Idx) :
    (dot_S512x10000_S10000x128_S512x128_1_0_0_1_n_n.rhsIdx i q 0).val = (q ⟨0, by decide⟩).val :=
  dot_S512x10000_S10000x128_S512x128_1_0_0_1_n_n.rhsIdx_val_of_single rfl i q
/-- … and its column the output's column. -/
theorem rhs_adj_1 (i : S512x128.Idx) (q : dot_S512x10000_S10000x128_S512x128_1_0_0_1_n_n.contr.Idx) :
    (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-- The product into the zero splat at (p, q): the row p of the block against the column q of the support. -/
theorem adj_matmul_apply (a : FVec Ideal S512x10000 .f32) (s : FVec Ideal S10000x128 .f32) (p : Fin 512) (q : Fin 128) :
    matmul dot_S512x10000_S10000x128_S512x128_1_0_0_1_n_n none a s (constant (F := Ideal) S512x128 .f32 0x00000000#32) (ix2 p q)
      = ∑ k : Fin 10000, a (ix2 p k) * s (ix2 k q) := by
  simp only [matmul]
  rw [Ideal.matmul_constant_zero_apply, ← Equiv.sum_comp (contrEquiv1 dot_S512x10000_S10000x128_S512x128_1_0_0_1_n_n 10000 rfl rfl).symm]
  refine Finset.sum_congr rfl fun k _ => ?_
  have hk := contrEquiv1_symm_val dot_S512x10000_S10000x128_S512x128_1_0_0_1_n_n 10000 rfl rfl k
  have el : dot_S512x10000_S10000x128_S512x128_1_0_0_1_n_n.lhsIdx (ix2 p q) ((contrEquiv1 dot_S512x10000_S10000x128_S512x128_1_0_0_1_n_n 10000 rfl rfl).symm k) = ix2 p k := funext fun b => Fin.ext (by
    match b with
    | ⟨0, _⟩ => exact lhs_adj_0 _ _
    | ⟨1, _⟩ => exact (lhs_adj_1 _ _).trans hk)
  have er : dot_S512x10000_S10000x128_S512x128_1_0_0_1_n_n.rhsIdx (ix2 p q) ((contrEquiv1 dot_S512x10000_S10000x128_S512x128_1_0_0_1_n_n 10000 rfl rfl).symm k) = ix2 k q := funext fun b => Fin.ext (by
    match b with
    | ⟨0, _⟩ => exact (rhs_adj_0 _ _).trans hk
    | ⟨1, _⟩ => exact rhs_adj_1 _ _)
  rw [el, er]

/-- one output block: row p of the adjacency block against the support held in scratch, plus the bias row -/
theorem pay2_apply (a : Vec Ideal S512x10000 .f32) (s : Vec Ideal S10000x128 .f32) (b : Vec Ideal S1x128 .f32) (p : Fin 512) (q : Fin 128) :
    k0_pay2 (F := Ideal) a s b (ix2 p q) = (∑ k : Fin 10000, a (ix2 p k) * s (ix2 k q)) + b (ix2 (0 : Fin 1) q) := by
  unfold k0_pay2
  refine (addf_apply _ _ (ix2 p q)).trans ?_
  refine congrArg₂ (· + ·) (adj_matmul_apply a s p q) ?_
  refine (broadcastTo_1b_ab_apply _ Facts₀.broadcasts_S1x128_S512x128 p q).trans ?_
  exact congrFun (shapeCast_self b Facts₀.shapeCasts_S1x128_S1x128) (ix2 (0 : Fin 1) q)

/-- so an output row depends on the same row of the adjacency block only -/
theorem pay2_row_congr (a a' : Vec Ideal S512x10000 .f32) (s : Vec Ideal S10000x128 .f32) (b : Vec Ideal S1x128 .f32) (p : Fin 512)
    (h : ∀ k : Fin 10000, a (ix2 p k) = a' (ix2 p k)) (q : Fin 128) :
    k0_pay2 (F := Ideal) a s b (ix2 p q) = k0_pay2 (F := Ideal) a' s b (ix2 p q) := by
  rw [pay2_apply, pay2_apply]
  exact congrArg (· + b (ix2 (0 : Fin 1) q)) (Finset.sum_congr rfl fun k _ => by rw [h k])

end Cert.GraphConv.Pay

end
-- ==== Proof.Data.lean ====
/-
  The proof data of the one pipeline at the ideal instance, its body obligation, the run, and the frame.

  What each staging buffer holds after the body at grid point t:
    windows 0, 1, 2 (features, weight, bias row): their blocks, untouched;
    window 3 (the adjacency block): rows 512·t … of the adjacency on the rows inside the array; the last block
      overhangs the array by 240 rows, and on those the buffer holds whatever the fetch left, which nothing names;
    window 4 (the output block):  a · support + b  with a the adjacency block and  support = x · wᵀ.
  The scratch holds  support  from the first point on; that is the invariant carried between points.

  The two overhanging windows are stated on the rows inside the array only. This is sound for the output because
  at the ideal instance row p of  a · s + b  is a function of row p of  a  alone: the rows of the buffer past the
  array's end feed output rows past the array's end, which the clipped write-back never moves.
-/
import proofs.«116116_g5188320494189_cont_8to1_c_158_7_alg».proof.Proof.Body
import proofs.«116116_g5188320494189_cont_8to1_c_158_7_alg».proof.Proof.Payload
import proofs.«116116_g5188320494189_cont_8to1_c_158_7_alg».proof.Proof.Gen.KernelIdeal.Points
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## Names -/

/-- The scratch operand: a whole buffer of the kernel's own. -/
abbrev scr : Memref sig .tc .vmem S10000x128 .f32 := Memref.whole cc0_scratch0

/-- The region's invariant as the launch hands it over: the scratch at some contents, the generator register at
    some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The first grid point. -/
abbrev t₀ : Fin cfg0.N := ⟨0, by decide⟩

/-- The blocks of the three windows whose block is their whole array, typed literally. -/
abbrev xblk (c : Dev nD) (t : Fin cfg0.N) : Vec Ideal S10000x128 .f32 := iblk m c 0 t
abbrev wblk (c : Dev nD) (t : Fin cfg0.N) : Vec Ideal S128x128 .f32 := iblk m c 1 t
abbrev bblk (c : Dev nD) (t : Fin cfg0.N) : Vec Ideal S1x128 .f32 := iblk m c 2 t

/-- The adjacency block at point `t` as a full [512, 10000] buffer: the array's rows where the block lies inside it,
    the zero word on the rows past the array's end (a filler nothing reads). -/
def ablk (c : Dev nD) (t : Fin cfg0.N) : Vec Ideal S512x10000 .f32 :=
  win0_3.fill (grid0.coords t) (fun _ => Scalar.ofBits (F := Ideal) .f32 0#32) (iblk m c 3 t)

/-- `support = x · wᵀ`, as the body stores it into the scratch at the first point. -/
def sup (c : Dev nD) : Vec Ideal S10000x128 .f32 := k0_pay1 (xblk m c t₀) (wblk m c t₀)

/-- The output block at point `t`: `a · support + b`. -/
def oblk (c : Dev nD) (t : Fin cfg0.N) : Vec Ideal S512x128 .f32 := k0_pay2 (ablk m c t) (sup m c) (bblk m c t)

/-! ## The invariant carried between points -/

/-- Before the first point the scratch holds anything; after it, `support`. -/
def PhiS (c : Dev nD) : ℕ → sProp 𝕄
  | 0 => Pipeline.ΦA spec0 c
  | _ + 1 => iprop(owns (c : Thread nD τ) scr fullShare (sup m c) ∗ (∃ r, prngReg c r))

theorem PhiS_pos (c : Dev nD) (n : ℕ) (h : n ≠ 0) :
    PhiS m c n = iprop(owns (c : Thread nD τ) scr fullShare (sup m c) ∗ (∃ r, prngReg c r)) := by
  cases n with
  | zero => exact absurd rfl h
  | succ n => rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ablk m c t
    | ⟨4, _⟩ => oblk m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = ablk m c t := by dsimp only [dats]
theorem after_4 (c : Dev nD) (t : Fin cfg0.N) : (dats m 0 c).after 4 t = oblk m c t := by dsimp only [dats]

/-- The three whole-array inputs are found at their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The adjacency window is fetched at every point: its block on the rows inside the array, `d` elsewhere. -/
theorem before_3 (c : Dev nD) (t : Fin cfg0.N) (d) :
    (dats m 0 c).before 3 t d = win0_3.fill (grid0.coords t) d (iblk m c 3 t) := by
  unfold Dat.before; rw [if_pos (fetch0_3 t)]; rfl

/-! ## Rows past the array's end do not reach rows inside it -/

/-- The two overhanging windows are cut alike on the row axis, and the adjacency block is not cut on its columns. -/
theorem xsize_facts : ∀ t : Fin cfg0.N, win0_3.xsize (grid0.coords t) 0 = win0_4.xsize (grid0.coords t) 0
    ∧ win0_3.xsize (grid0.coords t) 1 = 10000 ∧ win0_4.xsize (grid0.coords t) 1 = 128 :=
  (by decide +kernel : ∀ t : Fin grid0.N, win0_3.xsize (grid0.coords t) 0 = win0_4.xsize (grid0.coords t) 0
    ∧ win0_3.xsize (grid0.coords t) 1 = 10000 ∧ win0_4.xsize (grid0.coords t) 1 = 128)

/-- On a row the output's write-back moves, the fetched adjacency buffer does not depend on what it held before. -/
theorem fill_row (t : Fin cfg0.N) (d d' : S512x10000.Idx → Elt Ideal .f32)
    (g : (win0_3.xblock (grid0.coords t)).Idx → Elt Ideal .f32) (p : Fin 512) (hp : p.val < win0_4.xsize (grid0.coords t) 0)
    (k : Fin 10000) :
    win0_3.fill (grid0.coords t) d g (ix2 p k) = win0_3.fill (grid0.coords t) d' g (ix2 p k) := by
  have hm : win0_3.moved (grid0.coords t) (ix2 p k) = true := (win0_3.moved_iff _ _).mpr fun a => by
    match a with
    | ⟨0, _⟩ => exact lt_of_lt_of_eq hp (xsize_facts t).1.symm
    | ⟨1, _⟩ => exact lt_of_lt_of_eq k.isLt (xsize_facts t).2.1.symm
  unfold Window.fill; rw [dif_pos hm, dif_pos hm]

/-- So whatever the adjacency buffer held past the array's end, the output buffer the body leaves agrees, on the rows
    the write-back moves, with the one computed from the zero-filled block. -/
theorem out_cut_eq (c : Dev nD) (t : Fin cfg0.N) (d3 : S512x10000.Idx → Elt Ideal .f32)
    (s : Vec Ideal S10000x128 .f32) (b : Vec Ideal S1x128 .f32) :
    win0_4.cut (grid0.coords t) (k0_pay2 (win0_3.fill (grid0.coords t) d3 (iblk m c 3 t)) s b)
      = win0_4.cut (grid0.coords t) (k0_pay2 (ablk m c t) s b) := by
  funext j
  have hj0 : (j 0).val < win0_4.xsize (grid0.coords t) 0 := (j 0).isLt
  have h512 : (j 0).val < 512 := lt_of_lt_of_le hj0 (win0_4.xsize_le (grid0.coords t) 0)
  have h128 : (j 1).val < 128 := lt_of_lt_of_eq (j 1).isLt (xsize_facts t).2.2
  have e : win0_4.xinj (grid0.coords t) j = ix2 (⟨(j 0).val, h512⟩ : Fin 512) (⟨(j 1).val, h128⟩ : Fin 128) :=
    funext fun a => Fin.ext (by match a with | ⟨0, _⟩ => rfl | ⟨1, _⟩ => rfl)
  show k0_pay2 _ s b (win0_4.xinj (grid0.coords t) j) = k0_pay2 _ s b (win0_4.xinj (grid0.coords t) j)
  rw [e]
  exact Cert.GraphConv.Pay.pay2_row_congr _ _ s b _ (fun k => fill_row t d3 _ (iblk m c 3 t) _ hj0 k) _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two overhanging windows stated on the rows inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, after_0, after_1, after_2, after_3, after_4]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  by_cases hz : t.val = 0
  · have hc : firstPoint (grid0.coords t) := (firstPoint_iff t).mpr hz
    obtain rfl : t = t₀ := Fin.ext hz
    rw [show PhiS m c (t₀ : Fin cfg0.N).val = Pipeline.ΦA spec0 c from rfl, PhiA_eq]
    iintro ⟨⟨HS, Hg⟩, Ho, ⟨%d0, H0⟩, ⟨%d1, H1⟩, ⟨%d2, H2⟩, ⟨%d3, H3⟩, ⟨%d4, H4⟩⟩
    iapply (body_first (F := Ideal) c (grid0.coords t₀) _ _ _ _ _ _ _ _ _ _ _ _ hc (xblk m c t₀) (wblk m c t₀) (bblk m c t₀)
      (win0_3.fill (grid0.coords t₀) d3 (iblk m c 3 t₀)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists d3
      rw [show win0_3.cut (grid0.coords t₀) (ablk m c t₀) = iblk m c 3 t₀ from win0_3.cut_fill _ _ _]
      iexact H3
    · iexists _
      rw [show oblk m c t₀ = k0_pay2 (ablk m c t₀) (sup m c) (bblk m c t₀) from rfl,
        ← out_cut_eq m c t₀ d3 (sup m c) (bblk m c t₀), Window.fill_cut]
      iexact H4
  · have hc : ¬firstPoint (grid0.coords t) := fun h => hz ((firstPoint_iff t).mp h)
    rw [PhiS_pos m c _ hz]
    iintro ⟨⟨HS, Hg⟩, Ho, ⟨%d0, H0⟩, ⟨%d1, H1⟩, ⟨%d2, H2⟩, ⟨%d3, H3⟩, ⟨%d4, H4⟩⟩
    iapply (body_later (F := Ideal) c (grid0.coords t) _ _ _ _ _ _ _ _ _ _ _ _ hc (xblk m c t) (wblk m c t) (bblk m c t)
      (win0_3.fill (grid0.coords t) d3 (iblk m c 3 t)) (sup m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists d3
      rw [show win0_3.cut (grid0.coords t) (ablk m c t) = iblk m c 3 t from win0_3.cut_fill _ _ _]
      iexact H3
    · iexists _
      rw [show oblk m c t = k0_pay2 (ablk m c t) (sup m c) (bblk m c t) from rfl,
        ← out_cut_eq m c t d3 (sup m c) (bblk m c t), Window.fill_cut]
      iexact H4

/-- The library's body obligation, at every point, the overhanging windows loose. -/
theorem body_obligation (c : Dev nD) : BodyObligationLoose (dats m 0 c) (defs₀ (F := Ideal)) Variants.none () Set.univ := fun t => by
  rw [bigSep_W0, bigSep_W0]
  exact sound_body m c t

/-! ## The run and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 20 := N_0; omega), PhiA_eq]
  iintro ⟨HS, Hg⟩
  isplitl [HS]
  · iexists _; iexact HS
  iexact Hg

set_option backward.isDefEq.respectTransparency.types false in
/-- From any memory with zero counters every weakly fair execution of @main terminates, each array of the pipeline
    ends at what the proof data computes, and the bias argument is as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The idealized kernel's frame. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Blocks.lean ====
/-
  How the graph-convolution kernel's five windows read their arrays, at any float instance.

  The kernel runs on a grid of twenty points. Windows 0, 1 and 2 (the node features [10000, 128], the weight
  [128, 128] and the bias as one row [1, 128]) have the constant block index (0, 0) and a block as large as the
  array: at every point the block IS the array. Windows 3 and 4 (the adjacency [10000, 10000] in bands of 512
  rows, the result [10000, 128] in bands of 512 rows) have block index (t, 0) at point t, so entry (a, b) of the
  block is entry (512·t + a, b) of the array; twenty bands of 512 rows are 10240 rows, so the last band overhangs
  the array and its transfer is cut to the 272 rows inside. The facts below say exactly this: each block read at
  an index, the part of a cut block that lies inside the array, and that the result's twenty cut bands cover it.
  The bias row is the bias argument with a leading unit axis added by the one reshape that runs before the kernel.
  Nothing here runs a program.
-/
import proofs.«116116_g5188320494189_cont_8to1_c_158_7_alg».proof.Proof.Gen.KernelIdeal.Frame
import proofs.«116116_g5188320494189_cont_8to1_c_158_7_alg».proof.Proof.Gen.KernelIdeal.Points
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The printed index maps and cuts, decided once over the twenty grid points -/

/-- Window 0 (the node features) sits at block index (0, 0) at every point. -/
theorem index0 : ∀ t : Fin cfg0.N, ∀ a : Fin 2, win0_0.index t a = 0 :=
  (by decide +kernel : ∀ t : Fin grid0.N, ∀ a : Fin 2, win0_0.index t a = 0)

/-- Window 1 (the weight) sits at block index (0, 0) at every point. -/
theorem index1 : ∀ t : Fin cfg0.N, ∀ a : Fin 2, win0_1.index t a = 0 :=
  (by decide +kernel : ∀ t : Fin grid0.N, ∀ a : Fin 2, win0_1.index t a = 0)

/-- Window 2 (the bias row) sits at block index (0, 0) at every point. -/
theorem index2 : ∀ t : Fin cfg0.N, ∀ a : Fin 2, win0_2.index t a = 0 :=
  (by decide +kernel : ∀ t : Fin grid0.N, ∀ a : Fin 2, win0_2.index t a = 0)

/-- Window 3 (the adjacency, blocks of 512 rows by all 10000 columns): at point `t` the block index is (t, 0);
    the transfer moves `min 512 (10000 − 512·t)` rows (all 512 but at the last point, where 272 are inside the
    array) and every column. -/
theorem facts3 : ∀ t : Fin cfg0.N, win0_3.index t 0 = t.val ∧ win0_3.index t 1 = 0
    ∧ win0_3.xsize (grid0.coords t) 0 = min 512 (10000 - 512 * t.val) ∧ win0_3.xsize (grid0.coords t) 1 = 10000 :=
  (by decide +kernel : ∀ t : Fin grid0.N, win0_3.index t 0 = t.val ∧ win0_3.index t 1 = 0
    ∧ win0_3.xsize (grid0.coords t) 0 = min 512 (10000 - 512 * t.val) ∧ win0_3.xsize (grid0.coords t) 1 = 10000)

/-- Window 4 (the result, blocks of 512 rows by all 128 columns): at point `t` the block index is (t, 0); the
    transfer moves `min 512 (10000 − 512·t)` rows and every column. -/
theorem facts4 : ∀ t : Fin cfg0.N, win0_4.index t 0 = t.val ∧ win0_4.index t 1 = 0
    ∧ win0_4.xsize (grid0.coords t) 0 = min 512 (10000 - 512 * t.val) ∧ win0_4.xsize (grid0.coords t) 1 = 128 :=
  (by decide +kernel : ∀ t : Fin grid0.N, win0_4.index t 0 = t.val ∧ win0_4.index t 1 = 0
    ∧ win0_4.xsize (grid0.coords t) 0 = min 512 (10000 - 512 * t.val) ∧ win0_4.xsize (grid0.coords t) 1 = 128)

/-- A grid point's number is below twenty. -/
theorem point_lt (t : Fin cfg0.N) : t.val < 20 := lt_of_lt_of_eq t.isLt N_0

/-! ## Windows 0, 1, 2: the block is the whole array -/

/-- Window 0 holds the whole feature array at every point: block index (0, 0) and block size the array's, so
    entry `j` of the block is entry `0·size + j = j` of the array. -/
theorem iblk0_eq (c : Dev nD) (t : Fin cfg0.N) (j : S10000x128.Idx) : iblk m c 0 t j = V m c main_arg0 j := by
  show V m c main_arg0 (((cfg0.win 0).blk t).view.emb j) = V m c main_arg0 j
  refine congrArg _ (funext fun a => Fin.ext ?_)
  match a with
  | ⟨0, _⟩ =>
    show win0_0.index t (0 : Fin 2) * 10000 + 1 * (j 0).val = (j 0).val
    rw [index0 t 0]; omega
  | ⟨1, _⟩ =>
    show win0_0.index t (1 : Fin 2) * 128 + 1 * (j 1).val = (j 1).val
    rw [index0 t 1]; omega

/-- Window 1 holds the whole weight array at every point. -/
theorem iblk1_eq (c : Dev nD) (t : Fin cfg0.N) (j : S128x128.Idx) : iblk m c 1 t j = V m c main_arg2 j := by
  show V m c main_arg2 (((cfg0.win 1).blk t).view.emb j) = V m c main_arg2 j
  refine congrArg _ (funext fun a => Fin.ext ?_)
  match a with
  | ⟨0, _⟩ =>
    show win0_1.index t (0 : Fin 2) * 128 + 1 * (j 0).val = (j 0).val
    rw [index1 t 0]; omega
  | ⟨1, _⟩ =>
    show win0_1.index t (1 : Fin 2) * 128 + 1 * (j 1).val = (j 1).val
    rw [index1 t 1]; omega

/-- Window 2 holds the whole one-row bias array at every point. -/
theorem iblk2_eq (c : Dev nD) (t : Fin cfg0.N) (j : S1x128.Idx) : iblk m c 2 t j = V m c main_call0_v0 j := by
  show V m c main_call0_v0 (((cfg0.win 2).blk t).view.emb j) = V m c main_call0_v0 j
  refine congrArg _ (funext fun a => Fin.ext ?_)
  match a with
  | ⟨0, _⟩ =>
    show win0_2.index t (0 : Fin 2) * 1 + 1 * (j 0).val = (j 0).val
    rw [index2 t 0]; omega
  | ⟨1, _⟩ =>
    show win0_2.index t (1 : Fin 2) * 128 + 1 * (j 1).val = (j 1).val
    rw [index2 t 1]; omega

/-- The bias row the region finds is the bias argument: the one host operation before the region reshapes
    [128] to [1, 128], which adds a leading unit axis, so entry (0, q) of the row is entry q of the argument. -/
theorem bias_row (c : Dev nD) (q : Fin 128) :
    V m c main_call0_v0 (ix2 (0 : Fin 1) q) = m ((c : Thread nD τ).loc main_arg3) (ix1 q) := by
  have e : (V m c main_call0_v0 : S1x128.Idx → Elt F .f32)
      = shapeCast S1x128 (m ((c : Thread nD τ).loc main_arg3)) shapeCasts_S128_S1x128 := by
    dsimp only [Gen.V, Gen.hostOps0]; after_results; rfl
  rw [e]
  refine (shapeCast_addUnit_apply ![128] (m ((c : Thread nD τ).loc main_arg3)) shapeCasts_S128_S1x128
    (ix2 (0 : Fin 1) q)).trans ?_
  refine congrArg _ (funext fun a => ?_)
  match a with
  | ⟨0, _⟩ => rfl

/-! ## Window 3: the adjacency's row band at a point -/

/-- Window 3's staging buffer just after the fetch at point `t`, whatever it held before (`d`): an entry `j` whose
    row `512·t + j₀` is a row of the array (it is the row of some array index `i`, so below 10000) lies in the part
    the transfer moves, and holds the adjacency's entry at row `512·t + j₀`, column `j₁`. Rows past the array's
    end, at the last point only, keep `d` and are not spoken of. -/
theorem adj_fetched (c : Dev nD) (t : Fin cfg0.N) (d : S512x10000.Idx → Elt F .f32) (j : S512x10000.Idx)
    (i : S10000x10000.Idx) (h0 : (i 0).val = 512 * t.val + (j 0).val) (h1 : (i 1).val = (j 1).val) :
    win0_3.fill (grid0.coords t) d (iblk m c 3 t) j = V m c main_arg1 i := by
  obtain ⟨e0, e1, x0, x1⟩ := facts3 t
  have hi0 : (i 0).val < 10000 := (i 0).isLt
  have hj0 : (j 0).val < 512 := (j 0).isLt
  have hj1 : (j 1).val < 10000 := (j 1).isLt
  have hmv : win0_3.moved (grid0.coords t) j = true := (win0_3.moved_iff (grid0.coords t) j).mpr fun a => by
    match a with
    | ⟨0, _⟩ =>
      show (j 0).val < win0_3.xsize (grid0.coords t) 0
      rw [x0]; omega
    | ⟨1, _⟩ =>
      show (j 1).val < win0_3.xsize (grid0.coords t) 1
      rw [x1]; exact hj1
  unfold Pipeline.Window.fill
  rw [dif_pos hmv]
  show V m c main_arg1 (((cfg0.win 3).blk t).view.emb _) = V m c main_arg1 i
  refine congrArg _ (funext fun a => Fin.ext ?_)
  match a with
  | ⟨0, _⟩ =>
    show win0_3.index t (0 : Fin 2) * 512 + 1 * (j 0).val = (i 0).val
    rw [e0]; omega
  | ⟨1, _⟩ =>
    show win0_3.index t (1 : Fin 2) * 10000 + 1 * (j 1).val = (i 1).val
    rw [e1]; omega

/-! ## Window 4: the result's row band at a point, and the cover -/

/-- Where entry `j` of window 4's block at point `t`, cut to the array, lies in the result array: row
    `512·t + j₀`, column `j₁`. -/
theorem out_emb (t : Fin cfg0.N) (j : (win0_4.xblock (grid0.coords t)).Idx) :
    (((win0_4.blk t).view.emb j) 0).val = 512 * t.val + (j 0).val
      ∧ (((win0_4.blk t).view.emb j) 1).val = (j 1).val := by
  obtain ⟨e0, e1, -, -⟩ := facts4 t
  constructor
  · show win0_4.index t (0 : Fin 2) * 512 + 1 * (j 0).val = 512 * t.val + (j 0).val
    rw [e0]; omega
  · show win0_4.index t (1 : Fin 2) * 128 + 1 * (j 1).val = (j 1).val
    rw [e1]; omega

/-- An entry of the cut block is inside the array and inside the uncut block: the cut keeps
    `min 512 (10000 − 512·t)` rows and all 128 columns. -/
theorem out_row_lt (t : Fin cfg0.N) (j : (win0_4.xblock (grid0.coords t)).Idx) :
    512 * t.val + (j 0).val < 10000 ∧ (j 0).val < 512 ∧ (j 1).val < 128 := by
  obtain ⟨-, -, x0, x1⟩ := facts4 t
  have ht := point_lt t
  have hj0 : (j 0).val < win0_4.xsize (grid0.coords t) 0 := (j 0).isLt
  have hj1 : (j 1).val < win0_4.xsize (grid0.coords t) 1 := (j 1).isLt
  rw [x0] at hj0; rw [x1] at hj1
  omega

/-- The twenty blocks of window 4, each cut to the array, cover the result array, and each is written back:
    row `r` is in the block of point `r / 512`, since `512·(r/512) ≤ r < 512·(r/512) + min 512 (10000 − 512·(r/512))`
    for `r < 10000`, and every column is in every block. -/
theorem out_cover : ∀ i : S10000x128.Idx, ∃ t : Fin cfg0.N, (cfg0.win 4).flush t = true
    ∧ i ∈ ((cfg0.win 4).blk t).view.set := by
  intro i
  have hi0 : (i 0).val < 10000 := (i 0).isLt
  have hi1 : (i 1).val < 128 := (i 1).isLt
  let t : Fin cfg0.N := ⟨(i 0).val / 512, lt_of_lt_of_eq (by omega) N_0.symm⟩
  have htv : t.val = (i 0).val / 512 := rfl
  obtain ⟨e0, e1, x0, x1⟩ := facts4 t
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 2) * 512 ≤ (i 0).val
      ∧ (i 0).val < win0_4.index t (0 : Fin 2) * 512 + win0_4.xsize (grid0.coords t) 0
    rw [e0, x0, htv]; omega
  | ⟨1, _⟩ =>
    show win0_4.index t (1 : Fin 2) * 128 ≤ (i 1).val
      ∧ (i 1).val < win0_4.index t (1 : Fin 2) * 128 + win0_4.xsize (grid0.coords t) 1
    rw [e1, x1]; omega

end Cert.KernelIdeal.Hand

end
-- ==== Proof.Final.lean ====
/-
  The value of the idealized kernel: after the run the result array IS the layer.

  At grid point t the output block, on its rows inside the array, is
      (a · support + b)[p, q] = Σ_k a[p, k] · support[k, q] + b[0, q],
  where a[p, k] is the adjacency at row 512·t + p, support[k, q] = Σ_j x[k, j] · w[q, j] is what the first point left
  in the scratch, and b[0, q] is the bias reshaped to a row. That is the layer at (512·t + p, q): each flushed block
  is the layer read through the block, and the twenty blocks, the last cut at the array's end, cover the array.
-/
import proofs.«116116_g5188320494189_cont_8to1_c_158_7_alg».proof.Proof.Data
import proofs.«116116_g5188320494189_cont_8to1_c_158_7_alg».proof.Proof.Blocks
import proofs.«116116_g5188320494189_cont_8to1_c_158_7_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The layer of the four argument arrays as the program was launched with them. -/
def spec (c : Dev nD) : Buf (Elt Ideal) ((c.tc : Thread nD τ).loc main_v0) :=
  Cert.GraphConv.layer (m ((c.tc : Thread nD τ).loc main_arg0)) (m ((c.tc : Thread nD τ).loc main_arg1))
    (m ((c.tc : Thread nD τ).loc main_arg2)) (m ((c.tc : Thread nD τ).loc main_arg3))

/-- What the scratch holds from the first point on is `support` of the features and the weight. -/
theorem sup_apply (c : Dev nD) (k : Fin 10000) (q : Fin 128) :
    sup m c (ix2 k q)
      = Cert.GraphConv.support (m ((c.tc : Thread nD τ).loc main_arg0)) (m ((c.tc : Thread nD τ).loc main_arg2)) k q := by
  have ex : xblk m c t₀ = m ((c.tc : Thread nD τ).loc main_arg0) :=
    funext fun j => (iblk0_eq m c t₀ j).trans (congrFun (V_main_arg0 m c) j)
  have ew : wblk m c t₀ = m ((c.tc : Thread nD τ).loc main_arg2) :=
    funext fun j => (iblk1_eq m c t₀ j).trans (congrFun (V_main_arg2 m c) j)
  unfold sup
  rw [Cert.GraphConv.Pay.pay1_apply, ex, ew]

/-- What point `t` writes back is the layer read through the point's block. -/
theorem flushed_eq (c : Dev nD) (t : Fin cfg0.N) :
    (dats m 0 c).flushed 4 t = ((cfg0.win 4).blk t).view.read (Elt Ideal) (spec m c) := by
  funext j
  obtain ⟨h0, h1⟩ := out_emb t j
  obtain ⟨hr, h512, h128⟩ := out_row_lt t j
  have e : win0_4.xinj (grid0.coords t) j = ix2 (⟨(j 0).val, h512⟩ : Fin 512) (⟨(j 1).val, h128⟩ : Fin 128) :=
    funext fun a => Fin.ext (by match a with | ⟨0, _⟩ => rfl | ⟨1, _⟩ => rfl)
  have ei : (win0_4.blk t).view.emb j = ix2 (⟨512 * t.val + (j 0).val, hr⟩ : Fin 10000) (⟨(j 1).val, h128⟩ : Fin 128) :=
    funext fun a => Fin.ext (by match a with | ⟨0, _⟩ => exact h0 | ⟨1, _⟩ => exact h1)
  show oblk m c t (win0_4.xinj (grid0.coords t) j) = spec m c ((win0_4.blk t).view.emb j)
  rw [e, ei]
  unfold oblk spec
  rw [Cert.GraphConv.Pay.pay2_apply, Cert.GraphConv.layer_apply]
  congr 1
  · refine Finset.sum_congr rfl fun k _ => ?_
    rw [sup_apply]
    congr 1
    unfold ablk
    exact (adj_fetched m c t _ _ (ix2 (⟨512 * t.val + (j 0).val, hr⟩ : Fin 10000) k) rfl rfl).trans
      (congrFun (V_main_arg1 m c) _)
  · exact (iblk2_eq m c t _).trans (bias_row m c _)

/-- The result array after the run. -/
theorem final (c : Dev nD) : (dats m 0 c).arrAt 4 cfg0.N = spec m c :=
  (dats m 0 c).arrAt_eq_of_cover 4 (spec m c) (fun t _ => flushed_eq m c t) out_cover

/-- The idealized kernel runs, ends with the result array at the layer, and leaves its arguments as they were. -/
theorem value_run : θ_run defs (onTc (τ := τ) (main (F := Ideal))) ⟨m, fun _ => 0, ρ⟩ (fun r => ∀ c : Dev nD,
      r.2.mem ((c.tc : Thread nD τ).loc main_v0) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.Hand

end
-- ==== Proof.RefRead.lean ====
/-
  The reference program's run and its stages read at an index, gathered for the bridge.
-/
import proofs.«116116_g5188320494189_cont_8to1_c_158_7_alg».proof.Proof.Gen.ReferenceIdeal.Run
import proofs.«116116_g5188320494189_cont_8to1_c_158_7_alg».proof.Proof.Gen.ReferenceIdeal.Read
-- ==== Proof.RefIsSpec.lean ====
/-
  The reference program's result is the graph-convolution layer of the specification.

  The reference transposes the weight, contracts the features with it, contracts the adjacency with that
  product, broadcasts the bias along the rows and adds. Read at the index (r, c):

      wT[j, c]      = w[c, j]
      support[k, c] = Σ_j x[k, j] · wT[j, c]          = Σ_j x[k, j] · w[c, j]
      result[r, c]  = (Σ_k adj[r, k] · support[k, c]) + b[c]

  which is the specification's `layer` sum for sum and product for product: the two contractions are
  associated the same way on both sides, so nothing of the arithmetic of the extended reals is used;
  only the index functions of the stages are identified with the coordinates' indices.
-/
import proofs.«116116_g5188320494189_cont_8to1_c_158_7_alg».proof.Proof.RefRead
import proofs.«116116_g5188320494189_cont_8to1_c_158_7_alg».proof.Proof.Spec
import Idealize.ShloMosaic.Lib.ValueIdx
import Idealize.ShloMosaic.PureOps.Ideal

noncomputable section

open scoped BigOperators

namespace Cert.GraphConv.Ref

open Idealize.ShloMosaic Idealize.ShloMosaic.ValueIdx Cert.ReferenceIdeal Cert.ReferenceIdeal.Read

/-! ## The stages' index functions at coordinates -/

/-- The outer contraction reads the adjacency at row `r`, column `k`. -/
theorem lidx_v2 (r : Fin 10000) (c : Fin 128) (k : Fin 10000) :
    lidx_main_v2 (ix2 r c) k = ix2 r k :=
  funext fun a => Fin.ext (by match a with | ⟨0, _⟩ => rfl | ⟨1, _⟩ => rfl)

/-- The outer contraction reads the inner product at row `k`, column `c`. -/
theorem ridx_v2 (r : Fin 10000) (c : Fin 128) (k : Fin 10000) :
    ridx_main_v2 (ix2 r c) k = ix2 k c :=
  funext fun a => Fin.ext (by match a with | ⟨0, _⟩ => rfl | ⟨1, _⟩ => rfl)

/-- The inner contraction reads the features at row `k`, column `j`. -/
theorem lidx_v1 (k : Fin 10000) (c : Fin 128) (j : Fin 128) :
    lidx_main_v1 (ix2 k c) j = ix2 k j :=
  funext fun a => Fin.ext (by match a with | ⟨0, _⟩ => rfl | ⟨1, _⟩ => rfl)

/-- The inner contraction reads the transposed weight at row `j`, column `c`. -/
theorem ridx_v1 (k : Fin 10000) (c : Fin 128) (j : Fin 128) :
    ridx_main_v1 (ix2 k c) j = ix2 j c :=
  funext fun a => Fin.ext (by match a with | ⟨0, _⟩ => rfl | ⟨1, _⟩ => rfl)

/-- The transpose at `(j, c)` reads the weight at `(c, j)`. -/
theorem idx_v0 (j c : Fin 128) : idx_main_v0 (ix2 j c) = ix2 c j :=
  funext fun a => Fin.ext (by match a with | ⟨0, _⟩ => rfl | ⟨1, _⟩ => rfl)

/-- The two broadcasts of the bias, composed, read it at the column. -/
theorem idx_v3_v4 (r : Fin 10000) (c : Fin 128) : idx_main_v3 (idx_main_v4 (ix2 r c)) = ix1 c :=
  funext fun a => Fin.ext (by match a with | ⟨0, _⟩ => rfl)

/-! ## The stages at coordinates -/

/-- The inner product at `(k, c)` is the specification's `support`: Σ_j x[k, j] · w[c, j]. -/
theorem v1_eq_support (x0 : Vec Ideal S10000x128 .f32) (x2 : Vec Ideal S128x128 .f32) (k : Fin 10000) (c : Fin 128) :
    val_main_v1 (F := Ideal) x0 x2 (ix2 k c) = support x0 x2 k c := by
  rw [val_main_v1_apply]
  refine Finset.sum_congr rfl fun j _ => ?_
  rw [val_main_v0_apply, lidx_v1, ridx_v1, idx_v0]

/-- The broadcast bias at `(r, c)` is `b[c]`. -/
theorem v4_eq_bias (x3 : Vec Ideal S128 .f32) (r : Fin 10000) (c : Fin 128) :
    val_main_v4 (F := Ideal) x3 (ix2 r c) = x3 (ix1 c) := by
  rw [val_main_v4_apply, val_main_v3_apply, idx_v3_v4]

/-- The reference's result, as a function of its four arguments, is the layer
    `(Σ_k adj[r, k] · Σ_j x[k, j] · w[c, j]) + b[c]` at every index `(r, c)`. -/
theorem result_eq (x0 : Vec Ideal Cert.ReferenceIdeal.S10000x128 .f32) (x1 : Vec Ideal Cert.ReferenceIdeal.S10000x10000 .f32)
    (x2 : Vec Ideal Cert.ReferenceIdeal.S128x128 .f32) (x3 : Vec Ideal Cert.ReferenceIdeal.S128 .f32) :
    Cert.ReferenceIdeal.Read.val_main_v5 (F := Ideal) x0 x1 x2 x3 = Cert.GraphConv.layer x0 x1 x2 x3 := by
  funext i
  obtain ⟨r, c, rfl⟩ : ∃ (r : Fin 10000) (c : Fin 128), i = ix2 r c := ⟨i 0, i 1, eq_ix2 i⟩
  rw [layer_apply, val_main_v5_apply, val_main_v2_apply, v4_eq_bias, Ideal.addf_def]
  congr 1
  refine Finset.sum_congr rfl fun k _ => ?_
  rw [lidx_v2, ridx_v2, v1_eq_support]

end Cert.GraphConv.Ref

end
-- ==== Proof.lean ====
/-
  A graph-convolution layer, out = adj · (x · wᵀ) + b, as a Pallas kernel against its jnp reference.

  The kernel walks the adjacency in twenty row blocks of 512 (the last overhangs the 10000 rows by 240); at the first
  block it stores support = x · wᵀ into a scratch it keeps, and at every block it stores  block · support + b  into
  the result's block. The reference computes transpose, two dot_generals, two broadcasts and a sum. On the extended
  reals both are the same two nested sums in the same association (Proof/Spec.lean), so the precondition is not used.

  The frames: the reference's is its run with the result dropped; the idealized kernel's comes with its value run
  (Proof/Data.lean); the word-level kernel's is proved relationally (Proof/KernelFrame.lean), since at the word level
  the matrix unit's result is not a row-wise function of an operand whose tail rows nothing names.
-/
import proofs.«116116_g5188320494189_cont_8to1_c_158_7_alg».proof.Defs
import proofs.«116116_g5188320494189_cont_8to1_c_158_7_alg».proof.Proof.Gen.Kernel
import proofs.«116116_g5188320494189_cont_8to1_c_158_7_alg».proof.Proof.Gen.KernelIdeal
import proofs.«116116_g5188320494189_cont_8to1_c_158_7_alg».proof.Proof.Gen.ReferenceIdeal
import proofs.«116116_g5188320494189_cont_8to1_c_158_7_alg».proof.Proof.Gen.Pre_finite_inputs
import proofs.«116116_g5188320494189_cont_8to1_c_158_7_alg».proof.Proof.KernelFrame
import proofs.«116116_g5188320494189_cont_8to1_c_158_7_alg».proof.Proof.Data
import proofs.«116116_g5188320494189_cont_8to1_c_158_7_alg».proof.Proof.Final
import proofs.«116116_g5188320494189_cont_8to1_c_158_7_alg».proof.Proof.RefRead
import proofs.«116116_g5188320494189_cont_8to1_c_158_7_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the layer of their (agreeing) arguments. -/
theorem algebraic : Cert.algebraic_KernelIdeal_ReferenceIdeal := by
  intro m ρ m' ρ' _ hagree
  refine ⟨fun c => Cert.KernelIdeal.Hand.spec m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphConv.Ref.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
